-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x4 : Shape := ⟨2, ![4000000, 4]⟩
abbrev S4000000x3 : Shape := ⟨2, ![4000000, 3]⟩
abbrev S_ : Shape := ⟨0, ![]⟩

class Facts : Prop where
  bcast_S_S4000000x4 : S_.BroadcastsInDim S4000000x4 (![] : Fin 0 → Fin S4000000x4.rank)
  reducesTo_S4000000x4_S_d0_1 : S4000000x4.ReducesTo [0, 1] S_
  h_S_ : 0 < S_.numel
  bcast_S_S4000000x3 : S_.BroadcastsInDim S4000000x3 (![] : Fin 0 → Fin S4000000x3.rank)
  reducesTo_S4000000x3_S_d0_1 : S4000000x3.ReducesTo [0, 1] S_

variable [Facts]

def fn {F : FTy → Type} [FloatOps F] (main_arg0 : FVec F S4000000x4 .f32) (main_arg1 : FVec F S4000000x3 .f32) : IVec S_ 1 :=
  let main_v0 : FVec F S4000000x4 .f32 := Host.absf main_arg0
  let main_cst : FVec F S_ .f32 := constant S_ .f32 0x7F800000#32
  let main_v1 : FVec F S4000000x4 .f32 := broadcastInDim S4000000x4 ![] bcast_S_S4000000x4 main_cst
  let main_v2 : IVec S4000000x4 1 := cmpf .olt main_v0 main_v1
  let main_c : IVec S_ 1 := constantI S_ 1 1#1
  let main_v3 : IVec S_ 1 := (fun x v => Host.reduce IntOp.andi x v reducesTo_S4000000x4_S_d0_1 h_S_) main_v2 main_c
  let main_v4 : FVec F S4000000x3 .f32 := Host.absf main_arg1
  let main_cst_0 : FVec F S_ .f32 := constant S_ .f32 0x7F800000#32
  let main_v5 : FVec F S4000000x3 .f32 := broadcastInDim S4000000x3 ![] bcast_S_S4000000x3 main_cst_0
  let main_v6 : IVec S4000000x3 1 := cmpf .olt main_v4 main_v5
  let main_c_1 : IVec S_ 1 := constantI S_ 1 1#1
  let main_v7 : IVec S_ 1 := (fun x v => Host.reduce IntOp.andi x v reducesTo_S4000000x3_S_d0_1 h_S_) main_v6 main_c_1
  let main_v8 : IVec S_ 1 := andi main_v3 main_v7
  main_v8
-- ==== Kernel.lean ====
abbrev S4000000x4 : Shape := ⟨2, ![4000000, 4]⟩
abbrev S4000000x3 : Shape := ⟨2, ![4000000, 3]⟩
abbrev S4000000x9 : Shape := ⟨2, ![4000000, 9]⟩
abbrev S5000x4 : Shape := ⟨2, ![5000, 4]⟩
abbrev S5000x3 : Shape := ⟨2, ![5000, 3]⟩
abbrev S5000x9 : Shape := ⟨2, ![5000, 9]⟩
abbrev S4x5000 : Shape := ⟨2, ![4, 5000]⟩
abbrev S3x5000 : Shape := ⟨2, ![3, 5000]⟩
abbrev S1x5000 : Shape := ⟨2, ![1, 5000]⟩
abbrev S9x5000 : Shape := ⟨2, ![9, 5000]⟩
abbrev S4000000x3x3 : Shape := ⟨3, ![4000000, 3, 3]⟩

abbrev nBuf : Space → Nat
  | .hbm => 4
  | .vmem => 6
  | .smem => 0
  | _ => 0

abbrev bufTy : (tb : Table) → Fin (tcTables nBuf tb) → BufTy
  | .hbm, ⟨0, _⟩ => ⟨S4000000x4, .f32⟩
  | .hbm, ⟨1, _⟩ => ⟨S4000000x3, .f32⟩
  | .hbm, ⟨2, _⟩ => ⟨S4000000x9, .f32⟩
  | .hbm, ⟨3, _⟩ => ⟨S4000000x3x3, .f32⟩
  | .local _ .vmem, ⟨0, _⟩ => ⟨S5000x4, .f32⟩
  | .local _ .vmem, ⟨1, _⟩ => ⟨S5000x4, .f32⟩
  | .local _ .vmem, ⟨2, _⟩ => ⟨S5000x3, .f32⟩
  | .local _ .vmem, ⟨3, _⟩ => ⟨S5000x3, .f32⟩
  | .local _ .vmem, ⟨4, _⟩ => ⟨S5000x9, .f32⟩
  | .local _ .vmem, ⟨5, _⟩ => ⟨S5000x9, .f32⟩
  | _, _ => ⟨S4000000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![800], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x9 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S5000x4_S5000x4_0_0 : ∀ a, (![0, 0] : Fin 2 → Nat) a + S5000x4.size a ≤ S5000x4.size a
  h_S5000x4 : 0 < S5000x4.numel
  inb_S5000x3_S5000x3_0_0 : ∀ a, (![0, 0] : Fin 2 → Nat) a + S5000x3.size a ≤ S5000x3.size a
  h_S5000x3 : 0 < S5000x3.numel
  transposes_S5000x4_p1_0_S4x5000 : S5000x4.Transposes [1, 0] S4x5000
  transposes_S5000x3_p1_0_S3x5000 : S5000x3.Transposes [1, 0] S3x5000
  slices_S4x5000_o0_0_S1x5000 : S4x5000.Slices ![0, 0] S1x5000
  slices_S4x5000_o1_0_S1x5000 : S4x5000.Slices ![1, 0] S1x5000
  slices_S4x5000_o2_0_S1x5000 : S4x5000.Slices ![2, 0] S1x5000
  slices_S4x5000_o3_0_S1x5000 : S4x5000.Slices ![3, 0] S1x5000
  slices_S3x5000_o0_0_S1x5000 : S3x5000.Slices ![0, 0] S1x5000
  slices_S3x5000_o1_0_S1x5000 : S3x5000.Slices ![1, 0] S1x5000
  slices_S3x5000_o2_0_S1x5000 : S3x5000.Slices ![2, 0] S1x5000
  concatenates_S1x5000_S1x5000_S1x5000_S1x5000_S1x5000_S1x5000_S1x5000_S1x5000_S1x5000_S9x5000_d0 : Shape.Concatenates [S1x5000, S1x5000, S1x5000, S1x5000, S1x5000, S1x5000, S1x5000, S1x5000, S1x5000] S9x5000 0
  transposes_S9x5000_p1_0_S5000x9 : S9x5000.Transposes [1, 0] S5000x9
  inb_S5000x9_S5000x9_0_0 : ∀ a, (![0, 0] : Fin 2 → Nat) a + S5000x9.size a ≤ S5000x9.size a
  h_S5000x9 : 0 < S5000x9.numel
  shapeCasts_S4000000x9_S4000000x3x3 : S4000000x9.ShapeCasts S4000000x3x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x4.size a ≤ S4000000x4.size a
  hwx0_0 : ∀ i : grid0.Coords, EltTy.bits .f32 = 32 ∨ (Rect.block (s := S4000000x4) S5000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x3.size a ≤ S4000000x3.size a
  hwx0_1 : ∀ i : grid0.Coords, EltTy.bits .f32 = 32 ∨ (Rect.block (s := S4000000x3) S5000x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x9.size a ≤ S4000000x9.size a
  hwx0_2 : ∀ i : grid0.Coords, EltTy.bits .f32 = 32 ∨ (Rect.block (s := S4000000x9) S5000x9.size (cc0_transform_2 i) (hinb0_2 i)).WholeWords (EltTy.packing .f32)

variable [Facts₀]

abbrev win0_0 : Pipeline.Window sig grid0 :=
  Pipeline.Window.ofSpec (Memref.whole main_arg0) S5000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x9.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4000000x4 : Shape := ⟨2, ![4000000, 4]⟩
abbrev S4000000x3 : Shape := ⟨2, ![4000000, 3]⟩
abbrev S_ : Shape := ⟨0, ![]⟩
abbrev S4000000 : Shape := ⟨1, ![4000000]⟩
abbrev S4000000x1 : Shape := ⟨2, ![4000000, 1]⟩
abbrev S4000000x9 : Shape := ⟨2, ![4000000, 9]⟩
abbrev S4000000x3x3 : Shape := ⟨3, ![4000000, 3, 3]⟩
abbrev S4000000x1x3 : Shape := ⟨3, ![4000000, 1, 3]⟩

abbrev nBuf : Space → Nat
  | .hbm => 98
  | .vmem => 0
  | .smem => 0
  | _ => 0

abbrev bufTy : (tb : Table) → Fin (tcTables nBuf tb) → BufTy
  | .hbm, ⟨0, _⟩ => ⟨S4000000x4, .f32⟩
  | .hbm, ⟨1, _⟩ => ⟨S4000000x3, .f32⟩
  | .hbm, ⟨2, _⟩ => ⟨S4000000x4, .f32⟩
  | .hbm, ⟨3, _⟩ => ⟨S_, .f32⟩
  | .hbm, ⟨4, _⟩ => ⟨S4000000, .f32⟩
  | .hbm, ⟨5, _⟩ => ⟨S4000000x1, .f32⟩
  | .hbm, ⟨6, _⟩ => ⟨S4000000x1, .f32⟩
  | .hbm, ⟨7, _⟩ => ⟨S_, .f32⟩
  | .hbm, ⟨8, _⟩ => ⟨S4000000x1, .f32⟩
  | .hbm, ⟨9, _⟩ => ⟨S4000000x1, .f32⟩
  | .hbm, ⟨10, _⟩ => ⟨S4000000x4, .f32⟩
  | .hbm, ⟨11, _⟩ => ⟨S4000000x4, .f32⟩
  | .hbm, ⟨12, _⟩ => ⟨S4000000x1, .f32⟩
  | .hbm, ⟨13, _⟩ => ⟨S4000000, .f32⟩
  | .hbm, ⟨14, _⟩ => ⟨S4000000x1, .f32⟩
  | .hbm, ⟨15, _⟩ => ⟨S4000000, .f32⟩
  | .hbm, ⟨16, _⟩ => ⟨S4000000x1, .f32⟩
  | .hbm, ⟨17, _⟩ => ⟨S4000000, .f32⟩
  | .hbm, ⟨18, _⟩ => ⟨S4000000x1, .f32⟩
  | .hbm, ⟨19, _⟩ => ⟨S4000000, .f32⟩
  | .hbm, ⟨20, _⟩ => ⟨S4000000, .f32⟩
  | .hbm, ⟨21, _⟩ => ⟨S4000000, .f32⟩
  | .hbm, ⟨22, _⟩ => ⟨S4000000, .f32⟩
  | .hbm, ⟨23, _⟩ => ⟨S_, .f32⟩
  | .hbm, ⟨24, _⟩ => ⟨S4000000, .f32⟩
  | .hbm, ⟨25, _⟩ => ⟨S4000000, .f32⟩
  | .hbm, ⟨26, _⟩ => ⟨S_, .f32⟩
  | .hbm, ⟨27, _⟩ => ⟨S4000000, .f32⟩
  | .hbm, ⟨28, _⟩ => ⟨S4000000, .f32⟩
  | .hbm, ⟨29, _⟩ => ⟨S4000000, .f32⟩
  | .hbm, ⟨30, _⟩ => ⟨S4000000, .f32⟩
  | .hbm, ⟨31, _⟩ => ⟨S4000000, .f32⟩
  | .hbm, ⟨32, _⟩ => ⟨S_, .f32⟩
  | .hbm, ⟨33, _⟩ => ⟨S4000000, .f32⟩
  | .hbm, ⟨34, _⟩ => ⟨S4000000, .f32⟩
  | .hbm, ⟨35, _⟩ => ⟨S4000000, .f32⟩
  | .hbm, ⟨36, _⟩ => ⟨S4000000, .f32⟩
  | .hbm, ⟨37, _⟩ => ⟨S4000000, .f32⟩
  | .hbm, ⟨38, _⟩ => ⟨S_, .f32⟩
  | .hbm, ⟨39, _⟩ => ⟨S4000000, .f32⟩
  | .hbm, ⟨40, _⟩ => ⟨S4000000, .f32⟩
  | .hbm, ⟨41, _⟩ => ⟨S4000000, .f32⟩
  | .hbm, ⟨42, _⟩ => ⟨S4000000, .f32⟩
  | .hbm, ⟨43, _⟩ => ⟨S4000000, .f32⟩
  | .hbm, ⟨44, _⟩ => ⟨S_, .f32⟩
  | .hbm, ⟨45, _⟩ => ⟨S4000000, .f32⟩
  | .hbm, ⟨46, _⟩ => ⟨S4000000, .f32⟩
  | .hbm, ⟨47, _⟩ => ⟨S4000000, .f32⟩
  | .hbm, ⟨48, _⟩ => ⟨S4000000, .f32⟩
  | .hbm, ⟨49, _⟩ => ⟨S4000000, .f32⟩
  | .hbm, ⟨50, _⟩ => ⟨S_, .f32⟩
  | .hbm, ⟨51, _⟩ => ⟨S4000000, .f32⟩
  | .hbm, ⟨52, _⟩ => ⟨S4000000, .f32⟩
  | .hbm, ⟨53, _⟩ => ⟨S_, .f32⟩
  | .hbm, ⟨54, _⟩ => ⟨S4000000, .f32⟩
  | .hbm, ⟨55, _⟩ => ⟨S4000000, .f32⟩
  | .hbm, ⟨56, _⟩ => ⟨S4000000, .f32⟩
  | .hbm, ⟨57, _⟩ => ⟨S4000000, .f32⟩
  | .hbm, ⟨58, _⟩ => ⟨S4000000, .f32⟩
  | .hbm, ⟨59, _⟩ => ⟨S_, .f32⟩
  | .hbm, ⟨60, _⟩ => ⟨S4000000, .f32⟩
  | .hbm, ⟨61, _⟩ => ⟨S4000000, .f32⟩
  | .hbm, ⟨62, _⟩ => ⟨S4000000, .f32⟩
  | .hbm, ⟨63, _⟩ => ⟨S4000000, .f32⟩
  | .hbm, ⟨64, _⟩ => ⟨S4000000, .f32⟩
  | .hbm, ⟨65, _⟩ => ⟨S_, .f32⟩
  | .hbm, ⟨66, _⟩ => ⟨S4000000, .f32⟩
  | .hbm, ⟨67, _⟩ => ⟨S4000000, .f32⟩
  | .hbm, ⟨68, _⟩ => ⟨S4000000, .f32⟩
  | .hbm, ⟨69, _⟩ => ⟨S4000000, .f32⟩
  | .hbm, ⟨70, _⟩ => ⟨S4000000, .f32⟩
  | .hbm, ⟨71, _⟩ => ⟨S_, .f32⟩
  | .hbm, ⟨72, _⟩ => ⟨S4000000, .f32⟩
  | .hbm, ⟨73, _⟩ => ⟨S4000000, .f32⟩
  | .hbm, ⟨74, _⟩ => ⟨S4000000, .f32⟩
  | .hbm, ⟨75, _⟩ => ⟨S4000000, .f32⟩
  | .hbm, ⟨76, _⟩ => ⟨S4000000, .f32⟩
  | .hbm, ⟨77, _⟩ => ⟨S_, .f32⟩
  | .hbm, ⟨78, _⟩ => ⟨S4000000, .f32⟩
  | .hbm, ⟨79, _⟩ => ⟨S4000000, .f32⟩
  | .hbm, ⟨80, _⟩ => ⟨S_, .f32⟩
  | .hbm, ⟨81, _⟩ => ⟨S4000000, .f32⟩
  | .hbm, ⟨82, _⟩ => ⟨S4000000, .f32⟩
  | .hbm, ⟨83, _⟩ => ⟨S4000000x1, .f32⟩
  | .hbm, ⟨84, _⟩ => ⟨S4000000x1, .f32⟩
  | .hbm, ⟨85, _⟩ => ⟨S4000000x1, .f32⟩
  | .hbm, ⟨86, _⟩ => ⟨S4000000x1, .f32⟩
  | .hbm, ⟨87, _⟩ => ⟨S4000000x1, .f32⟩
  | .hbm, ⟨88, _⟩ => ⟨S4000000x1, .f32⟩
  | .hbm, ⟨89, _⟩ => ⟨S4000000x1, .f32⟩
  | .hbm, ⟨90, _⟩ => ⟨S4000000x1, .f32⟩
  | .hbm, ⟨91, _⟩ => ⟨S4000000x1, .f32⟩
  | .hbm, ⟨92, _⟩ => ⟨S4000000x9, .f32⟩
  | .hbm, ⟨93, _⟩ => ⟨S4000000x3x3, .f32⟩
  | .hbm, ⟨94, _⟩ => ⟨S4000000x1x3, .f32⟩
  | .hbm, ⟨95, _⟩ => ⟨S4000000x3x3, .f32⟩
  | .hbm, ⟨96, _⟩ => ⟨S4000000x3x3, .f32⟩
  | .hbm, ⟨97, _⟩ => ⟨S4000000x3x3, .f32⟩
  | _, _ => ⟨S4000000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_7 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_8 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_9 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_10 : Ref sig .tc := ⟨.hbm, 77, rfl⟩
abbrev main_v60 : Ref sig .tc := ⟨.hbm, 78, rfl⟩
abbrev main_v61 : Ref sig .tc := ⟨.hbm, 79, rfl⟩
abbrev main_cst_11 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩

abbrev nD : Nat := 1
abbrev τ : Topo := Topo.v7x

variable {F : FTy → Type} [FloatOps F]

class Facts₀ : Prop where
  reducesTo_S4000000x4_S4000000_d1 : S4000000x4.ReducesTo [1] S4000000
  h_S_ : 0 < S_.numel
  bcast_S4000000_S4000000x1_0 : S4000000.BroadcastsInDim S4000000x1 (![0] : Fin 1 → Fin S4000000x1.rank)
  bcast_S_S4000000x1 : S_.BroadcastsInDim S4000000x1 (![] : Fin 0 → Fin S4000000x1.rank)
  bcast_S4000000x1_S4000000x4_0_1 : S4000000x1.BroadcastsInDim S4000000x4 (![0, 1] : Fin 2 → Fin S4000000x4.rank)
  slices_S4000000x4_S4000000x1_0_0 : S4000000x4.Slices ![0, 0] S4000000x1
  shapeCasts_S4000000x1_S4000000 : S4000000x1.ShapeCasts S4000000
  slices_S4000000x4_S4000000x1_0_1 : S4000000x4.Slices ![0, 1] S4000000x1
  slices_S4000000x4_S4000000x1_0_2 : S4000000x4.Slices ![0, 2] S4000000x1
  slices_S4000000x4_S4000000x1_0_3 : S4000000x4.Slices ![0, 3] S4000000x1
  bcast_S_S4000000 : S_.BroadcastsInDim S4000000 (![] : Fin 0 → Fin S4000000.rank)
  concatenates_S4000000x1_S4000000x1_S4000000x1_S4000000x1_S4000000x1_S4000000x1_S4000000x1_S4000000x1_S4000000x1_S4000000x9_d1 : Shape.Concatenates [S4000000x1, S4000000x1, S4000000x1, S4000000x1, S4000000x1, S4000000x1, S4000000x1, S4000000x1, S4000000x1] S4000000x9 1
  shapeCasts_S4000000x9_S4000000x3x3 : S4000000x9.ShapeCasts S4000000x3x3
  bcast_S4000000x3_S4000000x1x3_0_2 : S4000000x3.BroadcastsInDim S4000000x1x3 (![0, 2] : Fin 2 → Fin S4000000x1x3.rank)
  bcast_S4000000x1x3_S4000000x3x3_0_1_2 : S4000000x1x3.BroadcastsInDim S4000000x3x3 (![0, 1, 2] : Fin 3 → Fin S4000000x3x3.rank)
  dot_S4000000x3x3_S4000000x3x3_S4000000x3x3_2_2_1_1_0_0_wf : DotDims.WF S4000000x3x3 S4000000x3x3 S4000000x3x3 [2] [2] [1] [1] [0] [0]

variable [Facts₀]

def dot_S4000000x3x3_S4000000x3x3_S4000000x3x3_2_2_1_1_0_0 : DotDims S4000000x3x3 S4000000x3x3 S4000000x3x3 where
  lhsContracting := [2]
  rhsContracting := [2]
  lhsNonContracting := [1]
  rhsNonContracting := [1]
  lhsBatch := [0]
  rhsBatch := [0]
  wf := dot_S4000000x3x3_S4000000x3x3_S4000000x3x3_2_2_1_1_0_0_wf

class Facts : Prop extends Facts₀ where

variable [Facts]
-- ==== Proof.Covariance.lean ====
/-
  The covariance of a scaled rotation, one row at a time.

  A row carries a quaternion `q = (r, x, y, z)` and three scales `s`.  The quaternion is divided by
  `max (√(r² + x² + y² + z²)) ε`; the unit quaternion `u` gives the 3×3 rotation `R(u)`; column `j` of `R` is
  multiplied by `s j`, giving `M = R · diag s`; the result is `M · Mᵀ`, entry `(i, k)` the three-term sum
  `Σ_j M i j · M k j`.  Everything is stated on the extended reals with the exact operations, the three literals
  (ε, 1, 2) kept as the words the programs print.

  `M · Mᵀ` is symmetric because the product of two extended reals commutes; no other law is used, so nothing here
  asks the entries to be finite.
-/
import Idealize.ShloMosaic.PureOps.Ideal
import Mathlib.Algebra.BigOperators.Fin
import Idealize.ShloMosaic.Lib.ValueIdx

noncomputable section

namespace Cert.Covariance

open Idealize.ShloMosaic Idealize.ShloMosaic.ValueIdx

/-- The clamp under the norm, the word both programs print for `1e-12`. -/
def eps : EReal := Ideal.ofBits .f32 0x2B8CBCCC#32
/-- The literal `2`. -/
def two : EReal := Ideal.ofBits .f32 0x40000000#32
/-- The literal `1`. -/
def one : EReal := Ideal.ofBits .f32 0x3F800000#32

/-- `r² + x² + y² + z²`, added left to right. -/
def sumsq (q : Fin 4 → EReal) : EReal := q 0 * q 0 + q 1 * q 1 + q 2 * q 2 + q 3 * q 3

/-- The clamped Euclidean norm of the quaternion. -/
def norm (q : Fin 4 → EReal) : EReal := max (Ideal.sqrt (sumsq q)) eps

/-- The quaternion divided by its clamped norm. -/
def unit (q : Fin 4 → EReal) (a : Fin 4) : EReal := Ideal.div (q a) (norm q)

/-- The rotation matrix of a quaternion `u = (r, x, y, z)`, row `i`, column `j`. -/
def rot (u : Fin 4 → EReal) (i j : Fin 3) : EReal :=
  ![![one - two * (u 2 * u 2 + u 3 * u 3), two * (u 1 * u 2 - u 0 * u 3), two * (u 1 * u 3 + u 0 * u 2)],
    ![two * (u 1 * u 2 + u 0 * u 3), one - two * (u 1 * u 1 + u 3 * u 3), two * (u 2 * u 3 - u 0 * u 1)],
    ![two * (u 1 * u 3 - u 0 * u 2), two * (u 2 * u 3 + u 0 * u 1), one - two * (u 1 * u 1 + u 2 * u 2)]] i j

/-! The nine entries of the rotation, written out. -/
theorem rot_00 (u : Fin 4 → EReal) : rot u 0 0 = one - two * (u 2 * u 2 + u 3 * u 3) := rfl
theorem rot_01 (u : Fin 4 → EReal) : rot u 0 1 = two * (u 1 * u 2 - u 0 * u 3) := rfl
theorem rot_02 (u : Fin 4 → EReal) : rot u 0 2 = two * (u 1 * u 3 + u 0 * u 2) := rfl
theorem rot_10 (u : Fin 4 → EReal) : rot u 1 0 = two * (u 1 * u 2 + u 0 * u 3) := rfl
theorem rot_11 (u : Fin 4 → EReal) : rot u 1 1 = one - two * (u 1 * u 1 + u 3 * u 3) := rfl
theorem rot_12 (u : Fin 4 → EReal) : rot u 1 2 = two * (u 2 * u 3 - u 0 * u 1) := rfl
theorem rot_20 (u : Fin 4 → EReal) : rot u 2 0 = two * (u 1 * u 3 - u 0 * u 2) := rfl
theorem rot_21 (u : Fin 4 → EReal) : rot u 2 1 = two * (u 2 * u 3 + u 0 * u 1) := rfl
theorem rot_22 (u : Fin 4 → EReal) : rot u 2 2 = one - two * (u 1 * u 1 + u 2 * u 2) := rfl

/-- `M = R(unit q) · diag s`: column `j` of the rotation scaled by `s j`. -/
def scaled (q : Fin 4 → EReal) (s : Fin 3 → EReal) (i j : Fin 3) : EReal := rot (unit q) i j * s j

/-- Entry `(i, k)` of `M · Mᵀ`: the product of rows `i` and `k` of `M`, added left to right. -/
def cov (q : Fin 4 → EReal) (s : Fin 3 → EReal) (i k : Fin 3) : EReal :=
  scaled q s i 0 * scaled q s k 0 + scaled q s i 1 * scaled q s k 1 + scaled q s i 2 * scaled q s k 2

/-- `M · Mᵀ` is symmetric: each of the three products commutes. -/
theorem cov_comm (q : Fin 4 → EReal) (s : Fin 3 → EReal) (i k : Fin 3) : cov q s i k = cov q s k i := by
  unfold cov
  rw [mul_comm (scaled q s i 0), mul_comm (scaled q s i 1), mul_comm (scaled q s i 2)]

/-- The nine entries laid out row by row, the lower triangle filled from the upper one: position `3 i + k` holds
    entry `(min i k, max i k)`. -/
def flat (q : Fin 4 → EReal) (s : Fin 3 → EReal) : Fin 9 → EReal :=
  ![cov q s 0 0, cov q s 0 1, cov q s 0 2, cov q s 0 1, cov q s 1 1, cov q s 1 2, cov q s 0 2, cov q s 1 2, cov q s 2 2]

/-- Position `3 i + k` of the row-by-row layout is entry `(i, k)`: on and above the diagonal by definition, below it
    by symmetry. -/
theorem flat_eq (q : Fin 4 → EReal) (s : Fin 3 → EReal) (i k : Fin 3) (c : Fin 9) (hc : c.val = 3 * i.val + k.val) :
    flat q s c = cov q s i k := by
  match i, k, c, hc with
  | ⟨0, _⟩, ⟨0, _⟩, ⟨0, _⟩, _ => rfl
  | ⟨0, _⟩, ⟨1, _⟩, ⟨1, _⟩, _ => rfl
  | ⟨0, _⟩, ⟨2, _⟩, ⟨2, _⟩, _ => rfl
  | ⟨1, _⟩, ⟨0, _⟩, ⟨3, _⟩, _ => exact cov_comm q s 0 1
  | ⟨1, _⟩, ⟨1, _⟩, ⟨4, _⟩, _ => rfl
  | ⟨1, _⟩, ⟨2, _⟩, ⟨5, _⟩, _ => rfl
  | ⟨2, _⟩, ⟨0, _⟩, ⟨6, _⟩, _ => exact cov_comm q s 0 2
  | ⟨2, _⟩, ⟨1, _⟩, ⟨7, _⟩, _ => exact cov_comm q s 1 2
  | ⟨2, _⟩, ⟨2, _⟩, ⟨8, _⟩, _ => rfl

/-- A sum over the three columns is the three-term sum of `cov`. -/
theorem sum_scaled (q : Fin 4 → EReal) (s : Fin 3 → EReal) (i k : Fin 3) :
    ∑ j : Fin 3, scaled q s i j * scaled q s k j = cov q s i k := Fin.sum_univ_three _

/-- A sum of the four squares from a zero start is `sumsq`. -/
theorem zero_add_sum_sq (q : Fin 4 → EReal) : (0 : EReal) + ∑ a : Fin 4, q a * q a = sumsq q := by
  rw [zero_add, Fin.sum_univ_four]; rfl

/-! ## The whole arrays -/

/-- The [4000000, 9] array whose row `n` is the row-by-row covariance of row `n` of the quaternions and row `n` of the
    scales. -/
def flatArray (Q : (⟨2, ![4000000, 4]⟩ : Shape).Idx → EReal) (S : (⟨2, ![4000000, 3]⟩ : Shape).Idx → EReal) :
    (⟨2, ![4000000, 9]⟩ : Shape).Idx → EReal :=
  fun i => flat (fun a => Q (ix2 (i 0) a)) (fun b => S (ix2 (i 0) b)) (i 1)

/-- The [4000000, 3, 3] array whose slice `n` is the covariance matrix of row `n`. -/
def covArray (Q : (⟨2, ![4000000, 4]⟩ : Shape).Idx → EReal) (S : (⟨2, ![4000000, 3]⟩ : Shape).Idx → EReal) :
    (⟨3, ![4000000, 3, 3]⟩ : Shape).Idx → EReal :=
  fun i => cov (fun a => Q (ix2 (i 0) a)) (fun b => S (ix2 (i 0) b)) (i 1) (i 2)

/-- Entry `(n, i, k)` of the matrices is entry `(n, 3 i + k)` of the flat array. -/
theorem flatArray_apply (Q : (⟨2, ![4000000, 4]⟩ : Shape).Idx → EReal) (S : (⟨2, ![4000000, 3]⟩ : Shape).Idx → EReal)
    (n : Fin 4000000) (i k : Fin 3) (c : Fin 9) (hc : c.val = 3 * i.val + k.val) :
    flatArray Q S (ix2 n c) = covArray Q S (ix3 n i k) :=
  flat_eq _ _ i k c hc

end Cert.Covariance

end
-- ==== Proof.BodyRow.lean ====
/-
  One entry of the kernel's output block.

  The body transposes the quaternion block [5000, 4] and the scale block [5000, 3] so that a row of the block becomes a
  lane, cuts the transposed blocks into their rows `r, x, y, z` and `s₀, s₁, s₂` (each a [1, 5000] vector), computes on
  those vectors lane by lane, stacks nine result vectors into [9, 5000] and transposes back to [5000, 9].

  So entry `(p, c)` of the stored block is result vector `c` at lane `p`, and every vector operation in between acts on
  lane `p` alone: the entry is the row-by-row layout `Covariance.flat` of row `p` of the quaternion block and row `p` of
  the scale block.
-/
import proofs.«160643_j60945585930483_1_alg».proof.Proof.Gen.KernelIdeal.Frame
import proofs.«160643_j60945585930483_1_alg».proof.Proof.Covariance
import Idealize.ShloMosaic.Lib.ValueIdx
import Idealize.ShloMosaic.Lib.ValueLayout
import Idealize.ShloMosaic.Lib.Pipeline.Value

noncomputable section

namespace Cert.KernelIdeal.BodyRow

open Idealize.ShloMosaic Idealize.ShloMosaic.ValueIdx Cert.KernelIdeal Cert.KernelIdeal.Gen Cert.Covariance

/-! ## The transposed blocks and their rows -/

/-- Row `a` of the transposed quaternion block, at lane `p`, is component `a` of row `p`. -/
theorem quatT_apply (x0 : Vec Ideal S5000x4 .f32) (a : Fin 4) (p : Fin 5000) :
    k0_pay2 (F := Ideal) x0 (ix2 a p) = x0 (ix2 p a) := by
  unfold k0_pay2
  exact transpose_ix2_apply x0 _ a p

/-- Row `b` of the transposed scale block, at lane `p`, is scale `b` of row `p`. -/
theorem scaleT_apply (x1 : Vec Ideal S5000x3 .f32) (b : Fin 3) (p : Fin 5000) :
    k0_pay3 (F := Ideal) x1 (ix2 b p) = x1 (ix2 p b) := by
  unfold k0_pay3
  exact transpose_ix2_apply x1 _ b p

theorem r_apply (x0 : Vec Ideal S5000x4 .f32) (p : Fin 5000) : k0_pay4 (F := Ideal) x0 (ix2 0 p) = x0 (ix2 p 0) := by
  unfold k0_pay4
  exact (slice2_axis0_apply 0 (k0_pay2 x0) _ 0 p 0 rfl).trans (quatT_apply x0 0 p)

theorem x_apply (x0 : Vec Ideal S5000x4 .f32) (p : Fin 5000) : k0_pay5 (F := Ideal) x0 (ix2 0 p) = x0 (ix2 p 1) := by
  unfold k0_pay5
  exact (slice2_axis0_apply 1 (k0_pay2 x0) _ 0 p 1 rfl).trans (quatT_apply x0 1 p)

theorem y_apply (x0 : Vec Ideal S5000x4 .f32) (p : Fin 5000) : k0_pay6 (F := Ideal) x0 (ix2 0 p) = x0 (ix2 p 2) := by
  unfold k0_pay6
  exact (slice2_axis0_apply 2 (k0_pay2 x0) _ 0 p 2 rfl).trans (quatT_apply x0 2 p)

theorem z_apply (x0 : Vec Ideal S5000x4 .f32) (p : Fin 5000) : k0_pay7 (F := Ideal) x0 (ix2 0 p) = x0 (ix2 p 3) := by
  unfold k0_pay7
  exact (slice2_axis0_apply 3 (k0_pay2 x0) _ 0 p 3 rfl).trans (quatT_apply x0 3 p)

theorem s0_apply (x1 : Vec Ideal S5000x3 .f32) (p : Fin 5000) :
    k0_pay19 (F := Ideal) (k0_pay3 x1) (ix2 0 p) = x1 (ix2 p 0) := by
  unfold k0_pay19
  exact (slice2_axis0_apply 0 (k0_pay3 x1) _ 0 p 0 rfl).trans (scaleT_apply x1 0 p)

theorem s1_apply (x1 : Vec Ideal S5000x3 .f32) (p : Fin 5000) :
    k0_pay20 (F := Ideal) (k0_pay3 x1) (ix2 0 p) = x1 (ix2 p 1) := by
  unfold k0_pay20
  exact (slice2_axis0_apply 1 (k0_pay3 x1) _ 0 p 1 rfl).trans (scaleT_apply x1 1 p)

theorem s2_apply (x1 : Vec Ideal S5000x3 .f32) (p : Fin 5000) :
    k0_pay21 (F := Ideal) (k0_pay3 x1) (ix2 0 p) = x1 (ix2 p 2) := by
  unfold k0_pay21
  exact (slice2_axis0_apply 2 (k0_pay3 x1) _ 0 p 2 rfl).trans (scaleT_apply x1 2 p)

/-! ## Nine vectors stacked -/

/-- Nine [1, 5000] vectors stacked along the rows: row `c`, lane `p` of the stack is vector `c` at lane `p`. -/
theorem stack9_apply (v0 v1 v2 v3 v4 v5 v6 v7 v8 : FVec Ideal S1x5000 .f32)
    (h : Shape.Concatenates (([⟨S1x5000, v0⟩, ⟨S1x5000, v1⟩, ⟨S1x5000, v2⟩, ⟨S1x5000, v3⟩, ⟨S1x5000, v4⟩, ⟨S1x5000, v5⟩,
      ⟨S1x5000, v6⟩, ⟨S1x5000, v7⟩, ⟨S1x5000, v8⟩] : List ((s : Shape) × (s.Idx → Ideal .f32))).map (·.1)) S9x5000 0)
    (c : Fin 9) (p : Fin 5000) :
    concatenate S9x5000 0 [⟨S1x5000, v0⟩, ⟨S1x5000, v1⟩, ⟨S1x5000, v2⟩, ⟨S1x5000, v3⟩, ⟨S1x5000, v4⟩, ⟨S1x5000, v5⟩,
      ⟨S1x5000, v6⟩, ⟨S1x5000, v7⟩, ⟨S1x5000, v8⟩] h (ix2 c p)
      = (![v0, v1, v2, v3, v4, v5, v6, v7, v8] c) (ix2 0 p) := by
  have hi : ∀ b : Fin S1x5000.rank, b.cast (rfl : S1x5000.rank = S9x5000.rank) ≠ (0 : Fin S9x5000.rank) →
      ((ix2 (0 : Fin 1) p : S1x5000.Idx) b).val = ((ix2 c p : S9x5000.Idx) (b.cast rfl)).val := fun b hb =>
    match b, hb with
    | ⟨0, _⟩, hb => absurd rfl hb
    | ⟨1, _⟩, _ => rfl
  match c with
  | ⟨0, _⟩ => exact concatenate_apply_piece 0 _ h _ 0 (show (0 : ℕ) < 9 by omega) S1x5000 v0 rfl rfl 0 rfl (ix2 0 p) hi rfl
  | ⟨1, _⟩ => exact concatenate_apply_piece 0 _ h _ 1 (show (1 : ℕ) < 9 by omega) S1x5000 v1 rfl rfl 1 rfl (ix2 0 p) hi rfl
  | ⟨2, _⟩ => exact concatenate_apply_piece 0 _ h _ 2 (show (2 : ℕ) < 9 by omega) S1x5000 v2 rfl rfl 2 rfl (ix2 0 p) hi rfl
  | ⟨3, _⟩ => exact concatenate_apply_piece 0 _ h _ 3 (show (3 : ℕ) < 9 by omega) S1x5000 v3 rfl rfl 3 rfl (ix2 0 p) hi rfl
  | ⟨4, _⟩ => exact concatenate_apply_piece 0 _ h _ 4 (show (4 : ℕ) < 9 by omega) S1x5000 v4 rfl rfl 4 rfl (ix2 0 p) hi rfl
  | ⟨5, _⟩ => exact concatenate_apply_piece 0 _ h _ 5 (show (5 : ℕ) < 9 by omega) S1x5000 v5 rfl rfl 5 rfl (ix2 0 p) hi rfl
  | ⟨6, _⟩ => exact concatenate_apply_piece 0 _ h _ 6 (show (6 : ℕ) < 9 by omega) S1x5000 v6 rfl rfl 6 rfl (ix2 0 p) hi rfl
  | ⟨7, _⟩ => exact concatenate_apply_piece 0 _ h _ 7 (show (7 : ℕ) < 9 by omega) S1x5000 v7 rfl rfl 7 rfl (ix2 0 p) hi rfl
  | ⟨8, _⟩ => exact concatenate_apply_piece 0 _ h _ 8 (show (8 : ℕ) < 9 by omega) S1x5000 v8 rfl rfl 8 rfl (ix2 0 p) hi rfl

/-! ## One entry of the stored block -/

theorem zero_offsets : (![0, 0] : Fin 2 → Nat) = fun _ => 0 := funext fun a => by fin_cases a <;> rfl

/-- Entry `(p, c)` of the block the body stores is position `c` of the row-by-row covariance of row `p` of the quaternion
    block and row `p` of the scale block.  The store's value is the transpose of the nine stacked vectors, so the entry is
    vector `c` at lane `p`; each vector is the lane-by-lane arithmetic of `Covariance` on the seven row vectors, which at
    lane `p` are the components of the two rows. -/
theorem out_apply (x0 : Vec Ideal S5000x4 .f32) (x1 : Vec Ideal S5000x3 .f32) (p : Fin 5000) (c : Fin 9) :
    out0_2 (F := Ideal) x0 x1 (ix2 p c) = flat (fun a => x0 (ix2 p a)) (fun b => x1 (ix2 p b)) c := by
  unfold out0_2
  rw [View.canon_unit_zero zero_offsets]
  simp only [View.ld_unit_zero (S := S5000x4) zero_offsets, View.ld_unit_zero (S := S5000x3) zero_offsets]
  unfold k0_pay1
  refine (transpose_ix2_apply _ _ p c).trans ?_
  refine (stack9_apply _ _ _ _ _ _ _ _ _ _ c p).trans ?_
  have hq : (![k0_pay4 (F := Ideal) x0 (ix2 0 p), k0_pay5 (F := Ideal) x0 (ix2 0 p), k0_pay6 (F := Ideal) x0 (ix2 0 p),
      k0_pay7 (F := Ideal) x0 (ix2 0 p)] : Fin 4 → EReal) = fun a => x0 (ix2 p a) :=
    funext fun a => match a with
      | ⟨0, _⟩ => r_apply x0 p
      | ⟨1, _⟩ => x_apply x0 p
      | ⟨2, _⟩ => y_apply x0 p
      | ⟨3, _⟩ => z_apply x0 p
  have hs : (![k0_pay19 (F := Ideal) (k0_pay3 x1) (ix2 0 p), k0_pay20 (F := Ideal) (k0_pay3 x1) (ix2 0 p),
      k0_pay21 (F := Ideal) (k0_pay3 x1) (ix2 0 p)] : Fin 3 → EReal) = fun b => x1 (ix2 p b) :=
    funext fun b => match b with
      | ⟨0, _⟩ => s0_apply x1 p
      | ⟨1, _⟩ => s1_apply x1 p
      | ⟨2, _⟩ => s2_apply x1 p
  rw [← hq, ← hs]
  match c with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl

end Cert.KernelIdeal.BodyRow

end
-- ==== Proof.OutputArray.lean ====
/-
  The kernel's result array.

  The grid has 800 points; point `t` is handed rows `5000 t … 5000 t + 4999` of the quaternions and of the scales and
  writes back rows `5000 t … 5000 t + 4999` of a [4000000, 9] array.  An entry of what it writes is the row-by-row
  covariance of the two rows it was handed at the same row position (`BodyRow.out_apply`), so the block is the
  restriction of ONE whole-array function, `Covariance.flatArray` of the two argument arrays; the 800 blocks tile the
  array (row `r` lies in the block of point `r / 5000`), so the array ends as that function.  The host then reshapes
  [4000000, 9] to [4000000, 3, 3], position `3 i + k` of a row becoming entry `(i, k)`: the result is
  `Covariance.covArray`.
-/
import proofs.«160643_j60945585930483_1_alg».proof.Proof.Gen.KernelIdeal.Frame
import proofs.«160643_j60945585930483_1_alg».proof.Proof.BodyRow
import Idealize.ShloMosaic.Lib.Pipeline.Value
import Idealize.ShloMosaic.Lib.StableHlo.Run

set_option maxRecDepth 16384

noncomputable section

namespace Cert.KernelIdeal.OutputArray

open Idealize.ShloMosaic Idealize.ShloMosaic.TcCoe Idealize.ShloMosaic.ValueIdx Idealize.SL.Sem
open Idealize.ShloMosaic.Pipeline (Dat)
open Cert.KernelIdeal Cert.KernelIdeal.Gen Cert.Covariance

variable (m : (ℓ : Loc nD τ sig) → Buf (Elt Ideal) ℓ) (ρ : Dev nD → PrngReg)

/-- The quaternion array as the region finds it. -/
abbrev quat (c : Dev nD) : Vec Ideal S4000000x4 .f32 := V m c main_arg0
/-- The scale array as the region finds it. -/
abbrev scal (c : Dev nD) : Vec Ideal S4000000x3 .f32 := V m c main_arg1

/-- The three index maps, decided over the grid: every window's block at point `t` is block `(t, 0)`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `flatArray` of the argument arrays. -/
theorem flushed_eq (c : Dev nD) (t : Fin cfg0.N) :
    (dats m 0 c).flushed 2 t = ((cfg0.win 2).blk t).view.read (Elt Ideal) (flatArray (quat m c) (scal m c)) := by
  show (cfg0.win 2).cut (grid0.coords t) ((dats m 0 c).after 2 t) = _
  rw [after0_2]
  obtain ⟨e00, e01, e10, e11, e20, e21⟩ := idx_facts t
  funext j
  obtain ⟨p, k, rfl⟩ : ∃ (p : Fin 5000) (k : Fin 9), j = ix2 p k := ⟨j 0, j 1, eq_ix2 j⟩
  show out0_2 (iblk m c 0 t) (iblk m c 1 t) (ix2 p k)
    = flatArray (quat m c) (scal m c) (((cfg0.win 2).blk t).view.emb (ix2 p k))
  refine (BodyRow.out_apply (iblk m c 0 t) (iblk m c 1 t) p k).trans ?_
  have hk : ((cfg0.win 2).blk t).view.emb (ix2 p k) (1 : Fin 2) = k :=
    Fin.ext (show win0_2.index t (1 : Fin 2) * 9 + 1 * k.val = k.val by omega)
  have hq : (fun a : Fin 4 => iblk m c 0 t (ix2 p a))
      = fun a => quat m c (ix2 (((cfg0.win 2).blk t).view.emb (ix2 p k) (0 : Fin 2)) a) :=
    funext fun a => by
      show V m c main_arg0 (((cfg0.win 0).blk t).view.emb (ix2 p a)) = V m c main_arg0 _
      refine congrArg (V m c main_arg0) (funext fun d => Fin.ext ?_)
      match d with
      | ⟨0, _⟩ => show win0_0.index t (0 : Fin 2) * 5000 + 1 * p.val = win0_2.index t (0 : Fin 2) * 5000 + 1 * p.val; omega
      | ⟨1, _⟩ => show win0_0.index t (1 : Fin 2) * 4 + 1 * a.val = a.val; omega
  have hs : (fun b : Fin 3 => iblk m c 1 t (ix2 p b))
      = fun b => scal m c (ix2 (((cfg0.win 2).blk t).view.emb (ix2 p k) (0 : Fin 2)) b) :=
    funext fun b => by
      show V m c main_arg1 (((cfg0.win 1).blk t).view.emb (ix2 p b)) = V m c main_arg1 _
      refine congrArg (V m c main_arg1) (funext fun d => Fin.ext ?_)
      match d with
      | ⟨0, _⟩ => show win0_1.index t (0 : Fin 2) * 5000 + 1 * p.val = win0_2.index t (0 : Fin 2) * 5000 + 1 * p.val; omega
      | ⟨1, _⟩ => show win0_1.index t (1 : Fin 2) * 3 + 1 * b.val = b.val; omega
  show flat (fun a : Fin 4 => iblk m c 0 t (ix2 p a)) (fun b : Fin 3 => iblk m c 1 t (ix2 p b)) k
    = flat (fun a => quat m c (ix2 (((cfg0.win 2).blk t).view.emb (ix2 p k) (0 : Fin 2)) a))
        (fun b => scal m c (ix2 (((cfg0.win 2).blk t).view.emb (ix2 p k) (0 : Fin 2)) b))
        (((cfg0.win 2).blk t).view.emb (ix2 p k) (1 : Fin 2))
  rw [hq, hs, hk]

/-- An index of the array is in point `t`'s block iff each coordinate is in the block's range on its axis. -/
theorem mem_blk (t : Fin cfg0.N) (i : S4000000x9.Idx) :
    i ∈ ((cfg0.win 2).blk t).view.set ↔ ∀ a : Fin 2, win0_2.index t a * S5000x9.size a ≤ (i a).val
      ∧ (i a).val < win0_2.index t a * S5000x9.size a + S5000x9.size a := by
  show i ∈ ((View.whole main_v0).slice (win0_2.rect t)).set ↔ _
  rw [View.set_slice_whole, Rect.mem_set_unit]
  exact Iff.rfl

/-- The blocks tile the array: row `r` lies in the block of point `r / 5000`. -/
theorem cover (i : S4000000x9.Idx) :
    ∃ t : Fin cfg0.N, (cfg0.win 2).flush t = true ∧ i ∈ ((cfg0.win 2).blk t).view.set := by
  have h0 : (i 0).val < 4000000 := (i 0).isLt
  have h1 : (i 1).val < 9 := (i 1).isLt
  have ht : (i 0).val / 5000 < cfg0.N := by show (i 0).val / 5000 < 800; omega
  obtain ⟨-, -, -, -, e20, e21⟩ := idx_facts ⟨(i 0).val / 5000, ht⟩
  have e20' : win0_2.index ⟨(i 0).val / 5000, ht⟩ (0 : Fin 2) = (i 0).val / 5000 := e20
  refine ⟨⟨(i 0).val / 5000, ht⟩, flush0_2 _, ?_⟩
  rw [mem_blk]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    omega
  | ⟨1, _⟩ =>
    show win0_2.index ⟨(i 0).val / 5000, ht⟩ (1 : Fin 2) * 9 ≤ (i 1).val
      ∧ (i 1).val < win0_2.index ⟨(i 0).val / 5000, ht⟩ (1 : Fin 2) * 9 + 9
    omega

/-- The [4000000, 9] array after the region is `flatArray` of the argument arrays. -/
theorem final (c : Dev nD) : (dats m 0 c).arrAt 2 cfg0.N = flatArray (quat m c) (scal m c) :=
  (dats m 0 c).arrAt_eq_of_cover 2 (flatArray (quat m c) (scal m c)) (fun t _ => flushed_eq m c t) cover

/-- The host's reshape of that array is `covArray` of the argument arrays. -/
theorem result_eq (c : Dev nD) :
    Pipeline.afterTail₀ cfgs (dats m) 0 (V0 m) [hostOps1] c main_v1 = covArray (quat m c) (scal m c) := by
  unfold Pipeline.afterTail₀
  show StableHlo.after hostOps1 _ (Proc.devRef .tc main_v1) = _
  after_results
  have hA : Pipeline.withArrays (cfgs 0).spec c (V0 m c) (fun w => (dats m 0 c).arrAt w (cfgs 0).N)
      (Proc.tc.devRef main_v0) = flatArray (quat m c) (scal m c) :=
    (Pipeline.withArrays_arr spec0 launch0.win.arr_inj c _ _ 2).trans (final m c)
  rw [hA]
  funext i
  obtain ⟨n, a, b, rfl⟩ : ∃ (n : Fin 4000000) (a b : Fin 3), i = ix3 n a b := ⟨i 0, i 1, i 2, eq_ix3 i⟩
  have ha : a.val < 3 := a.isLt
  have hb : b.val < 3 := b.isLt
  show shapeCast S4000000x3x3 (flatArray (quat m c) (scal m c)) shapeCasts_S4000000x9_S4000000x3x3 (ix3 n a b) = _
  refine (shapeCast_apply _ _ (ix3 n a b) (ix2 n (⟨3 * a.val + b.val, by omega⟩ : Fin 9)) ?_).trans
    (flatArray_apply _ _ n a b _ rfl)
  rw [Shape.rowMajor_val_two, Shape.rowMajor_val_three]
  show n.val * 9 + (3 * a.val + b.val) = (n.val * 3 + a.val) * 3 + b.val
  omega

end Cert.KernelIdeal.OutputArray

end
-- ==== Proof.KernelRun.lean ====
/-
  The idealized kernel's run, with its result named.

  The generated frame run leaves every array of the pipeline at what the blocks wrote and every other buffer at what the
  host lines after the region compute from those arrays.  The result buffer is the reshape of the [4000000, 9] array,
  which is the covariance array of the two arguments (`OutputArray.result_eq`); the two arguments are inputs of the
  pipeline and end as they began.
-/
import proofs.«160643_j60945585930483_1_alg».proof.Proof.OutputArray

noncomputable section

namespace Cert.KernelIdeal.OutputArray

open Idealize.ShloMosaic Idealize.ShloMosaic.TcCoe Idealize.SL.Sem
open Cert.KernelIdeal Cert.KernelIdeal.Gen Cert.Covariance

variable (m : (ℓ : Loc nD τ sig) → Buf (Elt Ideal) ℓ) (ρ : Dev nD → PrngReg)

/-- The result buffer is neither scoped nor an array of the pipeline: the lines after the region own it. -/
theorem result_bypasses : main_v1 ∈ Pipeline.restRefs sig (cfgs 0).spec :=
  Pipeline.mem_restRefs_of main_v1 rfl (fun w => by fin_cases w <;> decide)

/-- Every weakly fair execution of the idealized kernel terminates with the result at the covariance array of the
    arguments and the arguments unchanged. -/
theorem run : θ_run defs (onTc (τ := τ) (main (F := Ideal))) ⟨m, fun _ => 0, ρ⟩ fun r => ∀ c : Dev nD,
      r.2.mem ((c.tc : Thread nD τ).loc main_v1)
        = covArray (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v1 result_bypasses).trans (result_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c)))⟩)
    (run_main m ρ)

end Cert.KernelIdeal.OutputArray

end
-- ==== Proof.RefRow.lean ====
/-
  The reference, one row at a time.

  The reference computes the clamped norm of each quaternion (a sum of four squares from a zero start, its square
  root, the maximum with ε), divides the quaternion by it, builds the nine rotation entries as [4000000] arrays, joins
  them as the nine columns of a [4000000, 9] array, reshapes that to [4000000, 3, 3], multiplies column `j` by scale
  `j`, and contracts the result with itself over the column index.  Every stage at row `n` depends on row `n` of the
  quaternions and row `n` of the scales only, and is the matching stage of `Covariance`; the final contraction is the
  three-term sum `Covariance.cov`.
-/
import proofs.«160643_j60945585930483_1_alg».proof.Proof.Gen.ReferenceIdeal.Read
import proofs.«160643_j60945585930483_1_alg».proof.Proof.Covariance
import Idealize.ShloMosaic.Lib.ValueIdx
import Idealize.ShloMosaic.Lib.Pipeline.Value

noncomputable section

namespace Cert.ReferenceIdeal.RowValue

open Idealize.ShloMosaic Idealize.ShloMosaic.ValueIdx Cert.ReferenceIdeal Cert.ReferenceIdeal.Gen Cert.ReferenceIdeal.Read Cert.Covariance

variable (x0 : (⟨S4000000x4, .f32⟩ : BufTy).Contents (Elt Ideal)) (x1 : (⟨S4000000x3, .f32⟩ : BufTy).Contents (Elt Ideal))

/-- Row `n` of the quaternions. -/
abbrev qrow (n : Fin 4000000) : Fin 4 → EReal := fun a => x0 (ix2 n a)
/-- Row `n` of the scales. -/
abbrev srow (n : Fin 4000000) : Fin 3 → EReal := fun b => x1 (ix2 n b)

/-! ## The norm and the unit quaternion -/

/-- The sum of the four squares of row `n`, from a zero start. -/
theorem sumsq_apply (n : Fin 4000000) : val_main_call0_v1 (F := Ideal) x0 (ix1 n) = sumsq (qrow x0 n) := by
  refine (val_main_call0_v1_apply x0 (ix1 n)).trans ?_
  have e : ∀ k : Fin 4, idx_main_call0_v1 (ix1 n) k = ix2 n k := fun k =>
    funext fun a => Fin.ext (by match a with | ⟨0, _⟩ => rfl | ⟨1, _⟩ => rfl)
  simp only [e]
  show Ideal.ofBits .f32 0x00000000#32 + ∑ k : Fin 4, x0 (ix2 n k) * x0 (ix2 n k) = _
  rw [Ideal.ofBits_zero_f32]
  exact zero_add_sum_sq (qrow x0 n)

/-- The clamped norm of row `n`. -/
theorem norm_apply (n : Fin 4000000) : val_main_v2 (F := Ideal) x0 (ix2 n (0 : Fin 1)) = norm (qrow x0 n) := by
  have e : idx_main_call0_v2 (ix2 n (0 : Fin 1)) = ix1 n :=
    funext fun a => Fin.ext (by match a with | ⟨0, _⟩ => rfl)
  rw [val_main_v2_apply, val_main_v0_apply, val_main_call0_v2_apply, val_main_v1_apply, val_main_cst_apply, e, sumsq_apply]
  simp only [Ideal.maximumf_def, Ideal.hostUnary_sqrt_def, Ideal.ofBits_def]
  rfl

/-- Component `a` of row `n` divided by the clamped norm. -/
theorem unit_apply (n : Fin 4000000) (a : Fin 4) : val_main_v4 (F := Ideal) x0 (ix2 n a) = unit (qrow x0 n) a := by
  have e : idx_main_v3 (ix2 n a) = ix2 n (0 : Fin 1) :=
    funext fun d => Fin.ext (by match d with | ⟨0, _⟩ => rfl | ⟨1, _⟩ => rfl)
  rw [val_main_v4_apply, val_main_v3_apply, e, norm_apply]
  simp only [Ideal.hostDivf_def]
  rfl

/-- The four components `r, x, y, z` of the unit quaternion as [4000000] arrays, at row `n`. -/
theorem r_apply (n : Fin 4000000) : val_main_v6 (F := Ideal) x0 (ix1 n) = unit (qrow x0 n) 0 := by
  rw [val_main_v6_apply, val_main_v5_apply]
  have e : idx_main_v5 (idx_main_v6 (ix1 n)) = ix2 n (0 : Fin 4) :=
    funext fun d => Fin.ext (by match d with | ⟨0, _⟩ => exact Nat.div_one _ | ⟨1, _⟩ => rfl)
  rw [e, unit_apply]

theorem x_apply (n : Fin 4000000) : val_main_v8 (F := Ideal) x0 (ix1 n) = unit (qrow x0 n) 1 := by
  rw [val_main_v8_apply, val_main_v7_apply]
  have e : idx_main_v7 (idx_main_v8 (ix1 n)) = ix2 n (1 : Fin 4) :=
    funext fun d => Fin.ext (by match d with | ⟨0, _⟩ => exact Nat.div_one _ | ⟨1, _⟩ => rfl)
  rw [e, unit_apply]

theorem y_apply (n : Fin 4000000) : val_main_v10 (F := Ideal) x0 (ix1 n) = unit (qrow x0 n) 2 := by
  rw [val_main_v10_apply, val_main_v9_apply]
  have e : idx_main_v9 (idx_main_v10 (ix1 n)) = ix2 n (2 : Fin 4) :=
    funext fun d => Fin.ext (by match d with | ⟨0, _⟩ => exact Nat.div_one _ | ⟨1, _⟩ => rfl)
  rw [e, unit_apply]

theorem z_apply (n : Fin 4000000) : val_main_v12 (F := Ideal) x0 (ix1 n) = unit (qrow x0 n) 3 := by
  rw [val_main_v12_apply, val_main_v11_apply]
  have e : idx_main_v11 (idx_main_v12 (ix1 n)) = ix2 n (3 : Fin 4) :=
    funext fun d => Fin.ext (by match d with | ⟨0, _⟩ => exact Nat.div_one _ | ⟨1, _⟩ => rfl)
  rw [e, unit_apply]

/-! ## The nine rotation entries

Each entry array at row `n`: its pointwise stages read at the index, the two literals, the component arrays as the unit
quaternion of row `n`; what is left is the entry of `Covariance.rot` written out. -/

theorem rot00_apply (n : Fin 4000000) : val_main_v19 (F := Ideal) x0 (ix1 n) = rot (unit (qrow x0 n)) 0 0 := by
  rw [val_main_v19_apply, val_main_v18_apply, val_main_cst_1_apply, val_main_v17_apply, val_main_v16_apply, val_main_cst_0_apply, val_main_v15_apply, val_main_v13_apply, val_main_v14_apply, y_apply, z_apply]
  rw [rot_00]
  rfl
theorem rot01_apply (n : Fin 4000000) : val_main_v24 (F := Ideal) x0 (ix1 n) = rot (unit (qrow x0 n)) 0 1 := by
  rw [val_main_v24_apply, val_main_v23_apply, val_main_cst_2_apply, val_main_v22_apply, val_main_v20_apply, val_main_v21_apply, x_apply, y_apply, r_apply, z_apply]
  rw [rot_01]
  rfl
theorem rot02_apply (n : Fin 4000000) : val_main_v29 (F := Ideal) x0 (ix1 n) = rot (unit (qrow x0 n)) 0 2 := by
  rw [val_main_v29_apply, val_main_v28_apply, val_main_cst_3_apply, val_main_v27_apply, val_main_v25_apply, val_main_v26_apply, x_apply, z_apply, r_apply, y_apply]
  rw [rot_02]
  rfl
theorem rot10_apply (n : Fin 4000000) : val_main_v34 (F := Ideal) x0 (ix1 n) = rot (unit (qrow x0 n)) 1 0 := by
  rw [val_main_v34_apply, val_main_v33_apply, val_main_cst_4_apply, val_main_v32_apply, val_main_v30_apply, val_main_v31_apply, x_apply, y_apply, r_apply, z_apply]
  rw [rot_10]
  rfl
theorem rot11_apply (n : Fin 4000000) : val_main_v41 (F := Ideal) x0 (ix1 n) = rot (unit (qrow x0 n)) 1 1 := by
  rw [val_main_v41_apply, val_main_v40_apply, val_main_cst_6_apply, val_main_v39_apply, val_main_v38_apply, val_main_cst_5_apply, val_main_v37_apply, val_main_v35_apply, val_main_v36_apply, x_apply, z_apply]
  rw [rot_11]
  rfl
theorem rot12_apply (n : Fin 4000000) : val_main_v46 (F := Ideal) x0 (ix1 n) = rot (unit (qrow x0 n)) 1 2 := by
  rw [val_main_v46_apply, val_main_v45_apply, val_main_cst_7_apply, val_main_v44_apply, val_main_v42_apply, val_main_v43_apply, y_apply, z_apply, r_apply, x_apply]
  rw [rot_12]
  rfl
theorem rot20_apply (n : Fin 4000000) : val_main_v51 (F := Ideal) x0 (ix1 n) = rot (unit (qrow x0 n)) 2 0 := by
  rw [val_main_v51_apply, val_main_v50_apply, val_main_cst_8_apply, val_main_v49_apply, val_main_v47_apply, val_main_v48_apply, x_apply, z_apply, r_apply, y_apply]
  rw [rot_20]
  rfl
theorem rot21_apply (n : Fin 4000000) : val_main_v56 (F := Ideal) x0 (ix1 n) = rot (unit (qrow x0 n)) 2 1 := by
  rw [val_main_v56_apply, val_main_v55_apply, val_main_cst_9_apply, val_main_v54_apply, val_main_v52_apply, val_main_v53_apply, y_apply, z_apply, r_apply, x_apply]
  rw [rot_21]
  rfl
theorem rot22_apply (n : Fin 4000000) : val_main_v63 (F := Ideal) x0 (ix1 n) = rot (unit (qrow x0 n)) 2 2 := by
  rw [val_main_v63_apply, val_main_v62_apply, val_main_cst_11_apply, val_main_v61_apply, val_main_v60_apply, val_main_cst_10_apply, val_main_v59_apply, val_main_v57_apply, val_main_v58_apply, x_apply, y_apply]
  rw [rot_22]
  rfl

/-! ## The nine columns joined, and the reshape -/

/-- A [4000000] array made a [4000000, 1] column reads, at row `n`, the array at `n`. -/
theorem column_apply (h : S4000000.BroadcastsInDim S4000000x1 (![0] : Fin 1 → Fin S4000000x1.rank))
    (y : FVec Ideal S4000000 .f32) (n : Fin 4000000) :
    broadcastInDim S4000000x1 ![0] h y (ix2 n (0 : Fin 1)) = y (ix1 n) :=
  broadcastInDim_apply _ h y _ (ix1 n) (fun a => match a with
    | ⟨0, _⟩ => by show n.val = if (4000000 : Nat) = 1 then 0 else n.val; rw [if_neg (by decide)])

/-- Off the joined axis, entry `(n, c)` of the join and entry `(n, 0)` of a column have the same coordinate: the row. -/
theorem column_coords (n : Fin 4000000) (c : Fin 9) :
    ∀ b : Fin S4000000x1.rank, b.cast (rfl : S4000000x1.rank = S4000000x9.rank) ≠ (1 : Fin S4000000x9.rank) →
      ((ix2 n (0 : Fin 1) : S4000000x1.Idx) b).val = ((ix2 n c : S4000000x9.Idx) (b.cast rfl)).val := fun b hb =>
  match b, hb with
  | ⟨0, _⟩, _ => rfl
  | ⟨1, _⟩, hb => absurd rfl hb

/-- Nine [4000000, 1] columns joined side by side: row `n`, column `c` of the join is column `c` at row `n`. -/
theorem join9_apply (v0 v1 v2 v3 v4 v5 v6 v7 v8 : FVec Ideal S4000000x1 .f32)
    (h : Shape.Concatenates (([⟨S4000000x1, v0⟩, ⟨S4000000x1, v1⟩, ⟨S4000000x1, v2⟩, ⟨S4000000x1, v3⟩, ⟨S4000000x1, v4⟩,
      ⟨S4000000x1, v5⟩, ⟨S4000000x1, v6⟩, ⟨S4000000x1, v7⟩, ⟨S4000000x1, v8⟩] : List ((s : Shape) × (s.Idx → Ideal .f32))).map (·.1))
      S4000000x9 1)
    (n : Fin 4000000) (c : Fin 9) :
    concatenate S4000000x9 1 [⟨S4000000x1, v0⟩, ⟨S4000000x1, v1⟩, ⟨S4000000x1, v2⟩, ⟨S4000000x1, v3⟩, ⟨S4000000x1, v4⟩,
      ⟨S4000000x1, v5⟩, ⟨S4000000x1, v6⟩, ⟨S4000000x1, v7⟩, ⟨S4000000x1, v8⟩] h (ix2 n c)
      = (match c with
          | ⟨0, _⟩ => v0 | ⟨1, _⟩ => v1 | ⟨2, _⟩ => v2 | ⟨3, _⟩ => v3 | ⟨4, _⟩ => v4
          | ⟨5, _⟩ => v5 | ⟨6, _⟩ => v6 | ⟨7, _⟩ => v7 | ⟨8, _⟩ => v8) (ix2 n (0 : Fin 1)) := by
  match c with
  | ⟨0, _⟩ => exact concatenate_apply_piece 1 _ h _ 0 (show (0 : ℕ) < 9 by omega) S4000000x1 v0 rfl rfl 0 rfl (ix2 n 0) (column_coords n _) rfl
  | ⟨1, _⟩ => exact concatenate_apply_piece 1 _ h _ 1 (show (1 : ℕ) < 9 by omega) S4000000x1 v1 rfl rfl 1 rfl (ix2 n 0) (column_coords n _) rfl
  | ⟨2, _⟩ => exact concatenate_apply_piece 1 _ h _ 2 (show (2 : ℕ) < 9 by omega) S4000000x1 v2 rfl rfl 2 rfl (ix2 n 0) (column_coords n _) rfl
  | ⟨3, _⟩ => exact concatenate_apply_piece 1 _ h _ 3 (show (3 : ℕ) < 9 by omega) S4000000x1 v3 rfl rfl 3 rfl (ix2 n 0) (column_coords n _) rfl
  | ⟨4, _⟩ => exact concatenate_apply_piece 1 _ h _ 4 (show (4 : ℕ) < 9 by omega) S4000000x1 v4 rfl rfl 4 rfl (ix2 n 0) (column_coords n _) rfl
  | ⟨5, _⟩ => exact concatenate_apply_piece 1 _ h _ 5 (show (5 : ℕ) < 9 by omega) S4000000x1 v5 rfl rfl 5 rfl (ix2 n 0) (column_coords n _) rfl
  | ⟨6, _⟩ => exact concatenate_apply_piece 1 _ h _ 6 (show (6 : ℕ) < 9 by omega) S4000000x1 v6 rfl rfl 6 rfl (ix2 n 0) (column_coords n _) rfl
  | ⟨7, _⟩ => exact concatenate_apply_piece 1 _ h _ 7 (show (7 : ℕ) < 9 by omega) S4000000x1 v7 rfl rfl 7 rfl (ix2 n 0) (column_coords n _) rfl
  | ⟨8, _⟩ => exact concatenate_apply_piece 1 _ h _ 8 (show (8 : ℕ) < 9 by omega) S4000000x1 v8 rfl rfl 8 rfl (ix2 n 0) (column_coords n _) rfl

/-- The nine entry arrays joined as columns: row `n`, column `3 i + j` of the join is entry `(i, j)` of the rotation of
    row `n`'s unit quaternion. -/
theorem joined_apply (n : Fin 4000000) (i j : Fin 3) (c : Fin 9) (hc : c.val = 3 * i.val + j.val) :
    val_main_v73 (F := Ideal) x0 (ix2 n c) = rot (unit (qrow x0 n)) i j := by
  unfold val_main_v73
  refine Eq.trans (join9_apply _ _ _ _ _ _ _ _ _ _ n c) ?_
  match i, j, c, hc with
  | ⟨0, _⟩, ⟨0, _⟩, ⟨0, _⟩, _ =>
    exact (column_apply _ (val_main_v19 (F := Ideal) x0) n).trans (rot00_apply x0 n)
  | ⟨0, _⟩, ⟨1, _⟩, ⟨1, _⟩, _ =>
    exact (column_apply _ (val_main_v24 (F := Ideal) x0) n).trans (rot01_apply x0 n)
  | ⟨0, _⟩, ⟨2, _⟩, ⟨2, _⟩, _ =>
    exact (column_apply _ (val_main_v29 (F := Ideal) x0) n).trans (rot02_apply x0 n)
  | ⟨1, _⟩, ⟨0, _⟩, ⟨3, _⟩, _ =>
    exact (column_apply _ (val_main_v34 (F := Ideal) x0) n).trans (rot10_apply x0 n)
  | ⟨1, _⟩, ⟨1, _⟩, ⟨4, _⟩, _ =>
    exact (column_apply _ (val_main_v41 (F := Ideal) x0) n).trans (rot11_apply x0 n)
  | ⟨1, _⟩, ⟨2, _⟩, ⟨5, _⟩, _ =>
    exact (column_apply _ (val_main_v46 (F := Ideal) x0) n).trans (rot12_apply x0 n)
  | ⟨2, _⟩, ⟨0, _⟩, ⟨6, _⟩, _ =>
    exact (column_apply _ (val_main_v51 (F := Ideal) x0) n).trans (rot20_apply x0 n)
  | ⟨2, _⟩, ⟨1, _⟩, ⟨7, _⟩, _ =>
    exact (column_apply _ (val_main_v56 (F := Ideal) x0) n).trans (rot21_apply x0 n)
  | ⟨2, _⟩, ⟨2, _⟩, ⟨8, _⟩, _ =>
    exact (column_apply _ (val_main_v63 (F := Ideal) x0) n).trans (rot22_apply x0 n)
/-- The rotation as a [4000000, 3, 3] array: the reshape reads column `3 i + j` of the join. -/
theorem rotArray_apply (n : Fin 4000000) (i j : Fin 3) :
    val_main_v74 (F := Ideal) x0 (ix3 n i j) = rot (unit (qrow x0 n)) i j := by
  have hi : i.val < 3 := i.isLt
  have hj : j.val < 3 := j.isLt
  have e : idx_main_v74 (ix3 n i j) = ix2 n (⟨3 * i.val + j.val, by omega⟩ : Fin 9) :=
    funext fun d => Fin.ext (by
      match d with
      | ⟨0, _⟩ => show ((n.val * 3 + i.val) * 3 + j.val) / 9 = n.val; omega
      | ⟨1, _⟩ => show ((n.val * 3 + i.val) * 3 + j.val) % 9 = 3 * i.val + j.val; omega)
  rw [val_main_v74_apply, e]
  exact joined_apply x0 n i j _ rfl

/-! ## The scaled columns and their contraction -/

/-- The scales laid over the matrices: entry `(n, i, j)` is scale `j` of row `n`. -/
theorem scaleArray_apply (n : Fin 4000000) (i j : Fin 3) : val_main_v76 (F := Ideal) x1 (ix3 n i j) = srow x1 n j := by
  rw [val_main_v76_apply, val_main_v75_apply]
  exact congrArg x1 (funext fun d => Fin.ext (by match d with | ⟨0, _⟩ => rfl | ⟨1, _⟩ => rfl))

/-- `M = R · diag s` at `(n, i, j)`. -/
theorem scaledArray_apply (n : Fin 4000000) (i j : Fin 3) :
    val_main_v77 (F := Ideal) x0 x1 (ix3 n i j) = scaled (qrow x0 n) (srow x1 n) i j := by
  rw [val_main_v77_apply, rotArray_apply, scaleArray_apply]
  simp only [Ideal.mulf_def]
  rfl

/-- `M · Mᵀ` at `(n, i, k)`: the contraction over the column index is the three-term sum. -/
theorem covArray_apply (n : Fin 4000000) (i k : Fin 3) :
    val_main_v78 (F := Ideal) x0 x1 (ix3 n i k) = cov (qrow x0 n) (srow x1 n) i k := by
  have el : ∀ j : Fin 3, lidx_main_v78 (ix3 n i k) j = ix3 n i j := fun j =>
    funext fun d => Fin.ext (by match d with | ⟨0, _⟩ => rfl | ⟨1, _⟩ => rfl | ⟨2, _⟩ => rfl)
  have er : ∀ j : Fin 3, ridx_main_v78 (ix3 n i k) j = ix3 n k j := fun j =>
    funext fun d => Fin.ext (by match d with | ⟨0, _⟩ => rfl | ⟨1, _⟩ => rfl | ⟨2, _⟩ => rfl)
  rw [val_main_v78_apply]
  refine (Finset.sum_congr rfl fun j _ => ?_).trans (sum_scaled (qrow x0 n) (srow x1 n) i k)
  rw [el, er, scaledArray_apply, scaledArray_apply]

/-- The reference's result is `covArray` of its two arguments. -/
theorem result_eq : val_main_v78 (F := Ideal) x0 x1 = covArray x0 x1 := by
  funext idx
  obtain ⟨n, i, k, rfl⟩ : ∃ (n : Fin 4000000) (i k : Fin 3), idx = ix3 n i k := ⟨idx 0, idx 1, idx 2, eq_ix3 idx⟩
  exact covArray_apply x0 x1 n i k

end Cert.ReferenceIdeal.RowValue

end
-- ==== Proof.lean ====
/-
  Per-row covariance of a scaled rotation: the kernel against its reference.

  For each of 4,000,000 rows: normalise a quaternion by `max (‖q‖) ε`, build its 3×3 rotation `R`, scale column `j` by
  `s j` to get `M = R · diag s`, and return `M · Mᵀ`.

  The kernel works on blocks of 5000 rows, transposed so that a row is a lane; it computes the six entries on and above
  the diagonal of `M · Mᵀ` as three-term sums, lays out all nine by reusing each off-diagonal entry for its mirror
  image, and the host reshapes the [4000000, 9] result to [4000000, 3, 3].  The reference builds `R` as nine arrays joined
  into [4000000, 3, 3], multiplies by the scales, and contracts `M` with itself over the column index.

  Read on the extended reals with exact operations, both are ONE function of the two argument arrays,
  `Covariance.covArray`: the same norm (a four-term sum of squares, the reference's from a zero start), the same nine
  rotation entries operand for operand, the same three literals; the reference's contraction is the kernel's three-term
  sum, and the kernel's mirrored entries agree with the reference's because a product of two extended reals commutes.
  Only commutativity of the product and the unit and associativity of the sum are used, so the proof never opens the
  precondition that the inputs are finite.

  The kernel's side: one entry of the stored block (`BodyRow`), the blocks tiling the array and the host reshape
  (`OutputArray`), the run with its result named (`KernelRun`).  The reference's side: its stages one row at a time
  (`RefRow`) over its run.  The three frames are the programs' runs with the result dropped; the idealization rewrote no
  operation, so there is nothing to preserve.
-/
import proofs.«160643_j60945585930483_1_alg».proof.Defs
import proofs.«160643_j60945585930483_1_alg».proof.Proof.Gen.Kernel
import proofs.«160643_j60945585930483_1_alg».proof.Proof.Gen.Kernel.Skeleton
import proofs.«160643_j60945585930483_1_alg».proof.Proof.Gen.Kernel.Launch
import proofs.«160643_j60945585930483_1_alg».proof.Proof.Gen.Kernel.Points
import proofs.«160643_j60945585930483_1_alg».proof.Proof.Gen.Kernel.Frame
import proofs.«160643_j60945585930483_1_alg».proof.Proof.Gen.KernelIdeal
import proofs.«160643_j60945585930483_1_alg».proof.Proof.Gen.KernelIdeal.Skeleton
import proofs.«160643_j60945585930483_1_alg».proof.Proof.Gen.KernelIdeal.Launch
import proofs.«160643_j60945585930483_1_alg».proof.Proof.Gen.KernelIdeal.Points
import proofs.«160643_j60945585930483_1_alg».proof.Proof.Gen.KernelIdeal.Frame
import proofs.«160643_j60945585930483_1_alg».proof.Proof.Gen.ReferenceIdeal
import proofs.«160643_j60945585930483_1_alg».proof.Proof.Gen.Pre_finite_inputs
import proofs.«160643_j60945585930483_1_alg».proof.Proof.Gen.ReferenceIdeal.Run
import proofs.«160643_j60945585930483_1_alg».proof.Proof.Gen.ReferenceIdeal.Read
import proofs.«160643_j60945585930483_1_alg».proof.Proof.KernelRun
import proofs.«160643_j60945585930483_1_alg».proof.Proof.RefRow
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the two arguments both programs end with the covariance array of those arguments. -/
theorem algebraic : Cert.algebraic_KernelIdeal_ReferenceIdeal := by
  intro m ρ m' ρ' _ hagree
  refine ⟨_, Cert.KernelIdeal.OutputArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v78_eq, Cert.ReferenceIdeal.RowValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
